-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512x1024 : Shape := ⟨2, ![512, 1024]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S512x512 .f32) (main_arg1 : FVec F S512x512 .f32) (main_arg2 : FVec F S512x1024 .f32) (main_arg3 : FVec F S512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S512x512 : Shape := ⟨2, ![512, 512]⟩
abbrev S512x1024 : Shape := ⟨2, ![512, 1024]⟩
abbrev S512 : Shape := ⟨1, ![512]⟩
abbrev S1x512 : Shape := ⟨2, ![1, 512]⟩
abbrev S512x512x512 : Shape := ⟨3, ![512, 512, 512]⟩
abbrev S32x512 : Shape := ⟨2, ![32, 512]⟩
abbrev S128x512 : Shape := ⟨2, ![128, 512]⟩
abbrev S32x128x512 : Shape := ⟨3, ![32, 128, 512]⟩
abbrev S32x1x512 : Shape := ⟨3, ![32, 1, 512]⟩
abbrev S1x128x512 : Shape := ⟨3, ![1, 128, 512]⟩
abbrev S1x1x512 : Shape := ⟨3, ![1, 1, 512]⟩

abbrev nBuf : Space → Nat
  | .hbm => 10
  | .vmem => 13
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x1024, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S1x512, .f32⟩
  | .hbm, ⟨9, _⟩ => ⟨S512x512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S32x512, .f32⟩
  | .local _ .vmem, ⟨7, _⟩ => ⟨S32x512, .f32⟩
  | .local _ .vmem, ⟨8, _⟩ => ⟨S128x512, .f32⟩
  | .local _ .vmem, ⟨9, _⟩ => ⟨S128x512, .f32⟩
  | .local _ .vmem, ⟨10, _⟩ => ⟨S1x512, .f32⟩
  | .local _ .vmem, ⟨11, _⟩ => ⟨S32x128x512, .f32⟩
  | .local _ .vmem, ⟨12, _⟩ => ⟨S32x128x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg3_1 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem0_1 : DmaSem sig := 7
abbrev cc2_sem1_0 : DmaSem sig := 8
abbrev cc2_sem1_1 : DmaSem sig := 9
abbrev cc2_sem2_0 : DmaSem sig := 10
abbrev cc2_sem3_0 : DmaSem sig := 11
abbrev cc2_sem3_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S32x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S128x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S32x128x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  slices_S512x1024_S512x512_0_0 : S512x1024.Slices ![0, 0] S512x512
  slices_S512x1024_S512x512_0_512 : S512x1024.Slices ![0, 512] S512x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  shapeCasts_S512x512_S512x512 : S512x512.ShapeCasts S512x512
  transposes_S512x512_p1_0_S512x512 : S512x512.Transposes [1, 0] S512x512
  shapeCasts_S512_S1x512 : S512.ShapeCasts S1x512
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S32x512_S32x1x512 : S32x512.ShapeCasts S32x1x512
  shapeCasts_S32x1x512_S32x1x512 : S32x1x512.ShapeCasts S32x1x512
  broadcasts_S32x1x512_S32x128x512 : S32x1x512.Broadcasts S32x128x512
  inb_S32x128x512_S32x128x512_0_0_0 : ∀ a, (![0, 0, 0] : Fin 3 → Nat) a + S32x128x512.size a ≤ S32x128x512.size a
  h_S32x128x512 : 0 < S32x128x512.numel
  shapeCasts_S32x128x512_S32x128x512 : S32x128x512.ShapeCasts S32x128x512
  shapeCasts_S128x512_S1x128x512 : S128x512.ShapeCasts S1x128x512
  broadcasts_S1x128x512_S32x128x512 : S1x128x512.Broadcasts S32x128x512
  shapeCasts_S1x512_S1x1x512 : S1x512.ShapeCasts S1x1x512
  broadcasts_S1x1x512_S32x128x512 : S1x1x512.Broadcasts S32x128x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S512x512.size a
  hwx1_0 : ∀ i : grid1.Coords, EltTy.bits .f32 = 32 ∨ (Rect.block (s := S512x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x512.size a ≤ S512x512.size a
  hwx2_0 : ∀ i : grid2.Coords, EltTy.bits .f32 = 32 ∨ (Rect.block (s := S512x512) S32x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x512.size a ≤ S512x512.size a
  hwx2_1 : ∀ i : grid2.Coords, EltTy.bits .f32 = 32 ∨ (Rect.block (s := S512x512) S128x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S32x128x512.size a ≤ S512x512x512.size a
  hwx2_3 : ∀ i : grid2.Coords, EltTy.bits .f32 = 32 ∨ (Rect.block (s := S512x512x512) S32x128x512.size (cc2_transform_3 i) (hinb2_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x512.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S32x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S128x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S32x128x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S512x512 : Shape := ⟨2, ![512, 512]⟩
abbrev S512x1024 : Shape := ⟨2, ![512, 1024]⟩
abbrev S512 : Shape := ⟨1, ![512]⟩
abbrev S512x1x512 : Shape := ⟨3, ![512, 1, 512]⟩
abbrev S1x512x512 : Shape := ⟨3, ![1, 512, 512]⟩
abbrev S512x512x512 : Shape := ⟨3, ![512, 512, 512]⟩
abbrev S1x1x512 : Shape := ⟨3, ![1, 1, 512]⟩

abbrev nBuf : Space → Nat
  | .hbm => 18
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x1024, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x1x512, .f32⟩
  | .hbm, ⟨11, _⟩ => ⟨S1x512x512, .f32⟩
  | .hbm, ⟨12, _⟩ => ⟨S512x512x512, .f32⟩
  | .hbm, ⟨13, _⟩ => ⟨S512x512x512, .f32⟩
  | .hbm, ⟨14, _⟩ => ⟨S512x512x512, .f32⟩
  | .hbm, ⟨15, _⟩ => ⟨S1x1x512, .f32⟩
  | .hbm, ⟨16, _⟩ => ⟨S512x512x512, .f32⟩
  | .hbm, ⟨17, _⟩ => ⟨S512x512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  slices_S512x1024_S512x512_0_0 : S512x1024.Slices ![0, 0] S512x512
  slices_S512x1024_S512x512_0_512 : S512x1024.Slices ![0, 512] S512x512
  transposes_S512x512_S512x512_1_0 : S512x512.Transposes [1, 0] S512x512
  bcast_S512x512_S512x1x512_0_2 : S512x512.BroadcastsInDim S512x1x512 (![0, 2] : Fin 2 → Fin S512x1x512.rank)
  bcast_S512x512_S1x512x512_1_2 : S512x512.BroadcastsInDim S1x512x512 (![1, 2] : Fin 2 → Fin S1x512x512.rank)
  bcast_S512x1x512_S512x512x512_0_1_2 : S512x1x512.BroadcastsInDim S512x512x512 (![0, 1, 2] : Fin 3 → Fin S512x512x512.rank)
  bcast_S1x512x512_S512x512x512_0_1_2 : S1x512x512.BroadcastsInDim S512x512x512 (![0, 1, 2] : Fin 3 → Fin S512x512x512.rank)
  bcast_S512_S1x1x512_2 : S512.BroadcastsInDim S1x1x512 (![2] : Fin 1 → Fin S1x1x512.rank)
  bcast_S1x1x512_S512x512x512_0_1_2 : S1x1x512.BroadcastsInDim S512x512x512 (![0, 1, 2] : Fin 3 → Fin S512x512x512.rank)
  dot_S512x512_S512x512_S512x512_1_0_0_1_n_n_wf : DotDims.WF S512x512 S512x512 S512x512 [1] [0] [0] [1] [] []

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

class Facts : Prop extends Facts₀ where

variable [Facts]
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.Spec.lean ====
/-
  The pairwise affine map, as one function of its four arguments.

  For a ligand matrix `lig` and a receptor matrix `rec` (both [512, 512]), a weight `W` ([512, 1024], read as two
  [512, 512] column halves side by side) and a bias `b` ([512]), the result at `(p, q, r)` is

      (∑ k, lig (p, k) · W (r, k)) + (∑ k, rec (q, k) · W (r, 512 + k)) + b r

  on the extended reals: row `p` of the ligands against row `r` of the left half, plus row `q` of the receptors
  against row `r` of the right half, plus the bias; the two sums are added first and the bias last.
-/
import Idealize.ShloMosaic.Lib.ValueIdx
import Idealize.ShloMosaic.PureOps.Ideal

open scoped BigOperators

noncomputable section

namespace Cert.Pairwise

open Idealize.ShloMosaic Idealize.ShloMosaic.ValueIdx

abbrev Mat : Shape := ⟨2, ![512, 512]⟩
abbrev Wide : Shape := ⟨2, ![512, 1024]⟩
abbrev Vec1 : Shape := ⟨1, ![512]⟩
abbrev Cube : Shape := ⟨3, ![512, 512, 512]⟩

/-- Column `k` of the left half of the weight. -/
abbrev colLeft (k : Fin 512) : Fin 1024 := ⟨k.val, Nat.lt_trans k.isLt (by decide)⟩
/-- Column `k` of the right half of the weight. -/
abbrev colRight (k : Fin 512) : Fin 1024 := ⟨512 + k.val, by have := k.isLt; omega⟩

/-- The left [512, 512] half of the weight. -/
def leftHalf (W : Wide.Idx → EReal) : Mat.Idx → EReal := fun j => W (ix2 (j 0) (colLeft (j 1)))
/-- The right [512, 512] half of the weight. -/
def rightHalf (W : Wide.Idx → EReal) : Mat.Idx → EReal := fun j => W (ix2 (j 0) (colRight (j 1)))

theorem leftHalf_ix2 (W : Wide.Idx → EReal) (r k : Fin 512) : leftHalf W (ix2 r k) = W (ix2 r (colLeft k)) := rfl
theorem rightHalf_ix2 (W : Wide.Idx → EReal) (r k : Fin 512) : rightHalf W (ix2 r k) = W (ix2 r (colRight k)) := rfl

/-- Row `p` of `x` against row `r` of `w`: the entry `(p, r)` of `x · wᵀ`. -/
def rowDot (x w : Mat.Idx → EReal) (p r : Fin 512) : EReal := ∑ k : Fin 512, x (ix2 p k) * w (ix2 r k)

/-- The projection `x · wᵀ` as a matrix. -/
def proj (x w : Mat.Idx → EReal) : Mat.Idx → EReal := fun j => rowDot x w (j 0) (j 1)

theorem proj_ix2 (x w : Mat.Idx → EReal) (p r : Fin 512) : proj x w (ix2 p r) = rowDot x w p r := rfl

/-- The sum of a row of one matrix, a row of another and a row vector, at `(p, q, r)`. -/
def spread (a c : Mat.Idx → EReal) (b : Vec1.Idx → EReal) : Cube.Idx → EReal :=
  fun i => a (ix2 (i 0) (i 2)) + c (ix2 (i 1) (i 2)) + b (ix1 (i 2))

theorem spread_ix3 (a c : Mat.Idx → EReal) (b : Vec1.Idx → EReal) (p q r : Fin 512) :
    spread a c b (ix3 p q r) = a (ix2 p r) + c (ix2 q r) + b (ix1 r) := rfl

/-- The whole map: both projections, spread over the pairs, plus the bias. -/
def pairwise (lig rec : Mat.Idx → EReal) (W : Wide.Idx → EReal) (b : Vec1.Idx → EReal) : Cube.Idx → EReal :=
  spread (proj lig (leftHalf W)) (proj rec (rightHalf W)) b

theorem pairwise_ix3 (lig rec : Mat.Idx → EReal) (W : Wide.Idx → EReal) (b : Vec1.Idx → EReal) (p q r : Fin 512) :
    pairwise lig rec W b (ix3 p q r)
      = (∑ k : Fin 512, lig (ix2 p k) * W (ix2 r (colLeft k))) + (∑ k : Fin 512, rec (ix2 q k) * W (ix2 r (colRight k)))
        + b (ix1 r) := rfl

end Cert.Pairwise

end
-- ==== Proof.ProjRegion0.lean ====
/-
  Projection region 0: one grid point whose three blocks are whole [512, 512] arrays.

  The body stores the product of its first block with the transpose of its second into the third; since each
  block is its whole array, the output array after the region is that product of the two input arrays as the region
  finds them, and at the ideal values its entry `(p, r)` is row `p` of the first against row `r` of the second.
-/
import proofs.«142368_j13683765805203_1_alg».proof.Proof.Gen.KernelIdeal.Frame
import Idealize.ShloMosaic.Lib.Pipeline.Value
import proofs.«142368_j13683765805203_1_alg».proof.Proof.LibPlainDot
import proofs.«142368_j13683765805203_1_alg».proof.Proof.Spec

set_option maxRecDepth 16384

open scoped BigOperators

noncomputable section

namespace Cert.KernelIdeal.Proj0

open Cert.KernelIdeal Cert.KernelIdeal.Gen Idealize.ShloMosaic Idealize.ShloMosaic.TcCoe Idealize.SL.Sem
open Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

theorem zeroOff : (![0, 0] : Fin 2 → Nat) = fun _ => 0 := funext fun a => by fin_cases a <;> rfl

/-- Every block index of the region is zero on both axes, at its one point. -/
theorem blockIdx : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0) :=
  (by decide +kernel : ∀ t : Fin grid0.N, _)

/-- A position inside a block is the same position of the array. -/
theorem emb_0 (t : Fin cfg0.N) (y : S512x512.Idx) : ((cfg0.win 0).blk t).view.emb y = y := by
  obtain ⟨⟨h0, h1⟩, -, -⟩ := blockIdx t
  funext a; apply Fin.ext
  match a with
  | ⟨0, _⟩ => show win0_0.index t (0 : Fin 2) * 512 + 1 * (y 0).val = (y 0).val; rw [h0]; omega
  | ⟨1, _⟩ => show win0_0.index t (1 : Fin 2) * 512 + 1 * (y 1).val = (y 1).val; rw [h1]; omega
theorem emb_1 (t : Fin cfg0.N) (y : S512x512.Idx) : ((cfg0.win 1).blk t).view.emb y = y := by
  obtain ⟨-, ⟨h0, h1⟩, -⟩ := blockIdx t
  funext a; apply Fin.ext
  match a with
  | ⟨0, _⟩ => show win0_1.index t (0 : Fin 2) * 512 + 1 * (y 0).val = (y 0).val; rw [h0]; omega
  | ⟨1, _⟩ => show win0_1.index t (1 : Fin 2) * 512 + 1 * (y 1).val = (y 1).val; rw [h1]; omega
theorem emb_2 (t : Fin cfg0.N) (y : S512x512.Idx) : ((cfg0.win 2).blk t).view.emb y = y := by
  obtain ⟨-, -, ⟨h0, h1⟩⟩ := blockIdx t
  funext a; apply Fin.ext
  match a with
  | ⟨0, _⟩ => show win0_2.index t (0 : Fin 2) * 512 + 1 * (y 0).val = (y 0).val; rw [h0]; omega
  | ⟨1, _⟩ => show win0_2.index t (1 : Fin 2) * 512 + 1 * (y 1).val = (y 1).val; rw [h1]; omega

/-- The first input block is the whole first array. -/
theorem block_0 (c : Dev nD) (t : Fin cfg0.N) : (iblk0 V c 0 t : Vec F S512x512 .f32) = V c main_arg0 := by
  funext y
  show V c main_arg0 (((cfg0.win 0).blk t).view.emb y) = V c main_arg0 y
  rw [emb_0]
/-- The second input block is the whole second array. -/
theorem block_1 (c : Dev nD) (t : Fin cfg0.N) : (iblk0 V c 1 t : Vec F S512x512 .f32) = V c main_v0 := by
  funext y
  show V c main_v0 (((cfg0.win 1).blk t).view.emb y) = V c main_v0 y
  rw [emb_1]

/-- What the point writes back is the block of the product of the two arrays. -/
theorem flushed_eq (c : Dev nD) (t : Fin cfg0.N) :
    (dat0 V c).flushed 2 t = ((cfg0.win 2).blk t).view.read (Elt F) (k0_pay1 (V c main_arg0) (V c main_v0)) := by
  show (cfg0.win 2).cut (grid0.coords t) ((dat0 V c).after 2 t) = _
  rw [after0_2]
  unfold out0_2
  rw [View.canon_unit_zero zeroOff]
  simp only [View.ld_unit_zero (S := S512x512) zeroOff]
  funext j
  show k0_pay1 (iblk0 V c 0 t) (iblk0 V c 1 t) j = k0_pay1 (V c main_arg0) (V c main_v0) (((cfg0.win 2).blk t).view.emb j)
  rw [emb_2, block_0, block_1]

/-- An index of the array is in the point's block iff each coordinate is in the block's range. -/
theorem mem_blk (t : Fin cfg0.N) (i : S512x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v2).slice (win0_2.rect t)).set ↔ _
  rw [View.set_slice_whole, Rect.mem_set_unit]
  exact Iff.rfl

/-- The one block covers the array. -/
theorem cover (i : S512x512.Idx) : ∃ t : Fin cfg0.N, (cfg0.win 2).flush t = true ∧ i ∈ ((cfg0.win 2).blk t).view.set := by
  refine ⟨t0_0, flush0_2 t0_0, ?_⟩
  obtain ⟨-, -, ⟨h0, h1⟩⟩ := blockIdx t0_0
  rw [mem_blk]
  intro a
  match a with
  | ⟨0, _⟩ => show win0_2.index t0_0 (0 : Fin 2) * 512 ≤ (i 0).val ∧ (i 0).val < win0_2.index t0_0 (0 : Fin 2) * 512 + 512; have hi : (i 0).val < 512 := (i 0).isLt; rw [h0]; omega
  | ⟨1, _⟩ => show win0_2.index t0_0 (1 : Fin 2) * 512 ≤ (i 1).val ∧ (i 1).val < win0_2.index t0_0 (1 : Fin 2) * 512 + 512; have hi : (i 1).val < 512 := (i 1).isLt; rw [h1]; omega

/-- THE OUTPUT ARRAY after the region: the body's product of the two input arrays as the region finds them. -/
theorem final (c : Dev nD) : (dat0 V c).arrAt 2 cfg0.N = k0_pay1 (V c main_arg0) (V c main_v0) :=
  (dat0 V c).arrAt_eq_of_cover 2 _ (fun t _ => flushed_eq V c t) cover

/-- At the ideal values the body's product, at `(p, r)`, is row `p` of its first operand against row `r` of its
    second: the casts to the narrower format change nothing, the product into the zero accumulator is the plain
    sum, and the transposition exchanges the two coordinates the second operand is read at. -/
theorem pay_apply (x w : Vec Ideal S512x512 .f32) (p r : Fin 512) :
    k0_pay1 (F := Ideal) x w (ix2 p r) = Cert.Pairwise.rowDot x w p r := by
  unfold k0_pay1
  dsimp only
  rw [PlainDot.matmul_zero_apply dot_S512x512_S512x512_S512x512_1_0_0_1_n_n rfl rfl rfl rfl rfl rfl rfl rfl]
  unfold Cert.Pairwise.rowDot
  refine Finset.sum_congr rfl fun k _ => ?_
  rw [transpose_apply [1, 0] _ transposes_S512x512_p1_0_S512x512 (ix2 k r) (ix2 r k) (fun b => match b with
    | ⟨0, _⟩ => rfl
    | ⟨1, _⟩ => rfl)]
  show x (ix2 p k) * (shapeCast S512x512 w shapeCasts_S512x512_S512x512) (ix2 r k) = _
  rw [shapeCast_self]

/-- The body's product as the specification's projection. -/
theorem pay_eq (x w : Vec Ideal S512x512 .f32) : k0_pay1 (F := Ideal) x w = Cert.Pairwise.proj x w := by
  funext j
  obtain ⟨p, r, rfl⟩ : ∃ (p r : Fin 512), j = ix2 p r := ⟨j 0, j 1, eq_ix2 j⟩
  rw [pay_apply, Cert.Pairwise.proj_ix2]

end Cert.KernelIdeal.Proj0

end
-- ==== Proof.ProjRegion1.lean ====
/-
  Projection region 1: one grid point whose three blocks are whole [512, 512] arrays.

  The body stores the product of its first block with the transpose of its second into the third; since each
  block is its whole array, the output array after the region is that product of the two input arrays as the region
  finds them, and at the ideal values its entry `(p, r)` is row `p` of the first against row `r` of the second.
-/
import proofs.«142368_j13683765805203_1_alg».proof.Proof.Gen.KernelIdeal.Frame
import Idealize.ShloMosaic.Lib.Pipeline.Value
import proofs.«142368_j13683765805203_1_alg».proof.Proof.LibPlainDot
import proofs.«142368_j13683765805203_1_alg».proof.Proof.Spec

set_option maxRecDepth 16384

open scoped BigOperators

noncomputable section

namespace Cert.KernelIdeal.Proj1

open Cert.KernelIdeal Cert.KernelIdeal.Gen Idealize.ShloMosaic Idealize.ShloMosaic.TcCoe Idealize.SL.Sem
open Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

theorem zeroOff : (![0, 0] : Fin 2 → Nat) = fun _ => 0 := funext fun a => by fin_cases a <;> rfl

/-- Every block index of the region is zero on both axes, at its one point. -/
theorem blockIdx : ∀ t : Fin cfg1.N, (win1_0.index t (0 : Fin 2) = 0 ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0) :=
  (by decide +kernel : ∀ t : Fin grid1.N, _)

/-- A position inside a block is the same position of the array. -/
theorem emb_0 (t : Fin cfg1.N) (y : S512x512.Idx) : ((cfg1.win 0).blk t).view.emb y = y := by
  obtain ⟨⟨h0, h1⟩, -, -⟩ := blockIdx t
  funext a; apply Fin.ext
  match a with
  | ⟨0, _⟩ => show win1_0.index t (0 : Fin 2) * 512 + 1 * (y 0).val = (y 0).val; rw [h0]; omega
  | ⟨1, _⟩ => show win1_0.index t (1 : Fin 2) * 512 + 1 * (y 1).val = (y 1).val; rw [h1]; omega
theorem emb_1 (t : Fin cfg1.N) (y : S512x512.Idx) : ((cfg1.win 1).blk t).view.emb y = y := by
  obtain ⟨-, ⟨h0, h1⟩, -⟩ := blockIdx t
  funext a; apply Fin.ext
  match a with
  | ⟨0, _⟩ => show win1_1.index t (0 : Fin 2) * 512 + 1 * (y 0).val = (y 0).val; rw [h0]; omega
  | ⟨1, _⟩ => show win1_1.index t (1 : Fin 2) * 512 + 1 * (y 1).val = (y 1).val; rw [h1]; omega
theorem emb_2 (t : Fin cfg1.N) (y : S512x512.Idx) : ((cfg1.win 2).blk t).view.emb y = y := by
  obtain ⟨-, -, ⟨h0, h1⟩⟩ := blockIdx t
  funext a; apply Fin.ext
  match a with
  | ⟨0, _⟩ => show win1_2.index t (0 : Fin 2) * 512 + 1 * (y 0).val = (y 0).val; rw [h0]; omega
  | ⟨1, _⟩ => show win1_2.index t (1 : Fin 2) * 512 + 1 * (y 1).val = (y 1).val; rw [h1]; omega

/-- The first input block is the whole first array. -/
theorem block_0 (c : Dev nD) (t : Fin cfg1.N) : (iblk1 V c 0 t : Vec F S512x512 .f32) = V c main_arg1 := by
  funext y
  show V c main_arg1 (((cfg1.win 0).blk t).view.emb y) = V c main_arg1 y
  rw [emb_0]
/-- The second input block is the whole second array. -/
theorem block_1 (c : Dev nD) (t : Fin cfg1.N) : (iblk1 V c 1 t : Vec F S512x512 .f32) = V c main_v1 := by
  funext y
  show V c main_v1 (((cfg1.win 1).blk t).view.emb y) = V c main_v1 y
  rw [emb_1]

/-- What the point writes back is the block of the product of the two arrays. -/
theorem flushed_eq (c : Dev nD) (t : Fin cfg1.N) :
    (dat1 V c).flushed 2 t = ((cfg1.win 2).blk t).view.read (Elt F) (k1_pay1 (V c main_arg1) (V c main_v1)) := by
  show (cfg1.win 2).cut (grid1.coords t) ((dat1 V c).after 2 t) = _
  rw [after1_2]
  unfold out1_2
  rw [View.canon_unit_zero zeroOff]
  simp only [View.ld_unit_zero (S := S512x512) zeroOff]
  funext j
  show k1_pay1 (iblk1 V c 0 t) (iblk1 V c 1 t) j = k1_pay1 (V c main_arg1) (V c main_v1) (((cfg1.win 2).blk t).view.emb j)
  rw [emb_2, block_0, block_1]

/-- An index of the array is in the point's block iff each coordinate is in the block's range. -/
theorem mem_blk (t : Fin cfg1.N) (i : S512x512.Idx) :
    i ∈ ((cfg1.win 2).blk t).view.set ↔ ∀ a : Fin 2, win1_2.index t a * S512x512.size a ≤ (i a).val ∧ (i a).val < win1_2.index t a * S512x512.size a + S512x512.size a := by
  show i ∈ ((View.whole main_v3).slice (win1_2.rect t)).set ↔ _
  rw [View.set_slice_whole, Rect.mem_set_unit]
  exact Iff.rfl

/-- The one block covers the array. -/
theorem cover (i : S512x512.Idx) : ∃ t : Fin cfg1.N, (cfg1.win 2).flush t = true ∧ i ∈ ((cfg1.win 2).blk t).view.set := by
  refine ⟨t1_0, flush1_2 t1_0, ?_⟩
  obtain ⟨-, -, ⟨h0, h1⟩⟩ := blockIdx t1_0
  rw [mem_blk]
  intro a
  match a with
  | ⟨0, _⟩ => show win1_2.index t1_0 (0 : Fin 2) * 512 ≤ (i 0).val ∧ (i 0).val < win1_2.index t1_0 (0 : Fin 2) * 512 + 512; have hi : (i 0).val < 512 := (i 0).isLt; rw [h0]; omega
  | ⟨1, _⟩ => show win1_2.index t1_0 (1 : Fin 2) * 512 ≤ (i 1).val ∧ (i 1).val < win1_2.index t1_0 (1 : Fin 2) * 512 + 512; have hi : (i 1).val < 512 := (i 1).isLt; rw [h1]; omega

/-- THE OUTPUT ARRAY after the region: the body's product of the two input arrays as the region finds them. -/
theorem final (c : Dev nD) : (dat1 V c).arrAt 2 cfg1.N = k1_pay1 (V c main_arg1) (V c main_v1) :=
  (dat1 V c).arrAt_eq_of_cover 2 _ (fun t _ => flushed_eq V c t) cover

/-- At the ideal values the body's product, at `(p, r)`, is row `p` of its first operand against row `r` of its
    second: the casts to the narrower format change nothing, the product into the zero accumulator is the plain
    sum, and the transposition exchanges the two coordinates the second operand is read at. -/
theorem pay_apply (x w : Vec Ideal S512x512 .f32) (p r : Fin 512) :
    k1_pay1 (F := Ideal) x w (ix2 p r) = Cert.Pairwise.rowDot x w p r := by
  unfold k1_pay1
  dsimp only
  rw [PlainDot.matmul_zero_apply dot_S512x512_S512x512_S512x512_1_0_0_1_n_n rfl rfl rfl rfl rfl rfl rfl rfl]
  unfold Cert.Pairwise.rowDot
  refine Finset.sum_congr rfl fun k _ => ?_
  rw [transpose_apply [1, 0] _ transposes_S512x512_p1_0_S512x512 (ix2 k r) (ix2 r k) (fun b => match b with
    | ⟨0, _⟩ => rfl
    | ⟨1, _⟩ => rfl)]
  show x (ix2 p k) * (shapeCast S512x512 w shapeCasts_S512x512_S512x512) (ix2 r k) = _
  rw [shapeCast_self]

/-- The body's product as the specification's projection. -/
theorem pay_eq (x w : Vec Ideal S512x512 .f32) : k1_pay1 (F := Ideal) x w = Cert.Pairwise.proj x w := by
  funext j
  obtain ⟨p, r, rfl⟩ : ∃ (p r : Fin 512), j = ix2 p r := ⟨j 0, j 1, eq_ix2 j⟩
  rw [pay_apply, Cert.Pairwise.proj_ix2]

end Cert.KernelIdeal.Proj1

end
-- ==== Proof.LibRank3Layout.lean ====
/-
  Rank-3 layout operations read at one element, at any extents.

  A matrix given a unit middle axis by a shape cast, and the three ways a rank-3 array with unit axes is broadcast
  to a full [a, b, c] box (a unit middle axis, a unit leading axis, two unit leading axes): each read at `(i, k, j)`
  is the operand at the same coordinates with `0` on its unit axes.
-/
import Idealize.ShloMosaic.Lib.ValueIdx
import Idealize.ShloMosaic.Lib.Pipeline.Value

namespace Idealize.ShloMosaic.Rank3Layout

open Idealize.ShloMosaic Idealize.ShloMosaic.ValueIdx

variable {α : Type}

/-- An `[a, c]` array cast to `[a, 1, c]` reads, at `(i, u, j)`, the operand at `(i, j)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, 1, c]` array broadcast to `[a, b, c]` reads, at `(i, k, j)`, the operand at `(i, 0, j)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ x h (ix3 i k j) = x (ix3 i (0 : Fin 1) j) := by
  refine broadcastTo_apply x h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, k, j)`, the operand at `(0, k, j)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ x h (ix3 i k j) = x (ix3 (0 : Fin 1) k j) := by
  refine broadcastTo_apply x h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A `[1, 1, c]` array broadcast to `[a, b, c]` reads, at `(i, k, j)`, the operand at `(0, 0, j)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ x h (ix3 i k j) = x (ix3 (0 : Fin 1) (0 : Fin 1) j) := by
  refine broadcastTo_apply x h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

end Idealize.ShloMosaic.Rank3Layout
-- ==== Proof.AddRegion.lean ====
/-
  The broadcast-add region: a 16 × 4 grid over the [512, 512, 512] result.

  At grid point `(g, h)` the body reads 32 rows of the first matrix (rows `32 g …`), 128 rows of the second (rows
  `128 h …`) and the one bias row, and leaves in its [32, 128, 512] output block, at `(a, b, d)`,

      (first (a, d) + second (b, d)) + bias (0, d):

  it stores the first broadcast along the middle axis, reads that back and adds the second broadcast along the leading
  axis, reads that back and adds the bias. The blocks tile the result, so after the region the result array holds, at
  `(p, q, r)`, row `p` of the first matrix plus row `q` of the second plus the bias, each at column `r`.
-/
import proofs.«142368_j13683765805203_1_alg».proof.Proof.Gen.KernelIdeal.Frame
import Idealize.ShloMosaic.Lib.Pipeline.Value
import Idealize.ShloMosaic.Lib.ValueLayout
import proofs.«142368_j13683765805203_1_alg».proof.Proof.LibRank3Layout

set_option maxRecDepth 16384

noncomputable section

namespace Cert.KernelIdeal.PairAdd

open Cert.KernelIdeal Cert.KernelIdeal.Gen Idealize.ShloMosaic Idealize.ShloMosaic.TcCoe Idealize.ShloMosaic.Tactic Idealize.SL.Sem
open Idealize.ShloMosaic.ValueIdx Idealize.ShloMosaic.Rank3Layout
open Idealize.ShloMosaic.Pipeline (Dat Cfg Window)

theorem zeroOff2 : (![0, 0] : Fin 2 → Nat) = fun _ => 0 := funext fun a => by fin_cases a <;> rfl
theorem zeroOff3 : (![0, 0, 0] : Fin 3 → Nat) = fun _ => 0 := funext fun a => by fin_cases a <;> rfl

/-! ## One point's body -/

section Body

variable {F : FTy → Type} [FloatOps F]

/-- What the body leaves in its output block, from its three input blocks: the last of its three whole-block stores,
    each later one computed from the one before read back. -/
theorem run_eq (c : Dev nD) (i : grid2.Coords) (arg2 : Memref sig .tc .vmem S32x512 .f32) (harg2 : arg2.IsWhole)
    (arg3 : Memref sig .tc .vmem S128x512 .f32) (harg3 : arg3.IsWhole) (arg4 : Memref sig .tc .vmem S1x512 .f32) (harg4 : arg4.IsWhole)
    (arg5 : Memref sig .tc .vmem S32x128x512 .f32) (harg5 : arg5.IsWhole)
    (x0 : Vec F S32x512 .f32) (x1 : Vec F S128x512 .f32) (x2 : Vec F S1x512 .f32) :
    out2_A_3 c i arg2 harg2 arg3 harg3 arg4 harg4 arg5 harg5 x0 x1 x2 = k2_pay3 x2 (k2_pay2 x1 (k2_pay1 x0)) := by
  unfold out2_A_3
  rw [View.read_writes_eq_canon _ _ _ (cover2_A_3 c i arg2 harg2 arg3 harg3 arg4 harg4 arg5 harg5 x0 x1 x2)]
  unfold kernelRun2_A
  dsimp only
  sl_unfold_words
  rw [View.canon_cons_unit_zero (S := S32x128x512) zeroOff3]
  simp only [View.readAt_eq_ld, harg2.read_unread, harg3.read_unread, harg4.read_unread,
    View.ld_unit_zero (S := S32x512) zeroOff2, View.ld_unit_zero (S := S128x512) zeroOff2,
    View.ld_unit_zero (S := S1x512) zeroOff2, View.readCov_cons_toLoadRect]

end Body

/-- At the ideal values, the body's result at `(a, b, d)`: the casts that keep a shape change nothing, each cast that
    adds a unit axis and each broadcast reads its operand at the same coordinates with `0` on the unit axes. -/
theorem pay_apply (x0 : Vec Ideal S32x512 .f32) (x1 : Vec Ideal S128x512 .f32) (x2 : Vec Ideal S1x512 .f32)
    (a : Fin 32) (b : Fin 128) (d : Fin 512) :
    k2_pay3 (F := Ideal) x2 (k2_pay2 x1 (k2_pay1 x0)) (ix3 a b d) = x0 (ix2 a d) + x1 (ix2 b d) + x2 (ix2 (0 : Fin 1) d) := by
  unfold k2_pay3 k2_pay2 k2_pay1
  dsimp only
  simp only [shapeCast_self]
  rw [addf_apply, addf_apply, broadcastTo_a1c_abc_apply, shapeCast_ac_a1c_apply, broadcastTo_1bc_abc_apply,
    shapeCast_ab_1ab_apply, broadcastTo_11c_abc_apply, shapeCast_ab_1ab_apply]

/-! ## From the blocks to the array -/

variable (V : (c : Dev nD) → (b : Ref sig .tc) → Buf (Elt Ideal) ((c : Thread nD τ).loc b))

/-- The three arrays the region reads, as it finds them, at their literal types. -/
abbrev inA (c : Dev nD) : S512x512.Idx → EReal := V c main_v2
abbrev inC (c : Dev nD) : S512x512.Idx → EReal := V c main_v3
abbrev inB (c : Dev nD) : S1x512.Idx → EReal := V c main_v4

/-- Row `p` of `A` plus row `q` of `C` plus the one row of `B`, at column `r`. -/
def rows (A C : S512x512.Idx → EReal) (B : S1x512.Idx → EReal) : S512x512x512.Idx → EReal :=
  fun i => A (ix2 (i 0) (i 2)) + C (ix2 (i 1) (i 2)) + B (ix2 (0 : Fin 1) (i 2))

theorem rows_ix3 (A C : S512x512.Idx → EReal) (B : S1x512.Idx → EReal) (p q r : Fin 512) :
    rows A C B (ix3 p q r) = A (ix2 p r) + C (ix2 q r) + B (ix2 (0 : Fin 1) r) := rfl

/-- The printed index maps, decided over the grid: the first input's row block and the second's are the output's
    block indices on its first two axes, and every other block index is zero. -/
theorem blockIdx : ∀ t : Fin cfg2.N, win2_0.index t (0 : Fin 2) = win2_3.index t (0 : Fin 3)
    ∧ win2_0.index t (1 : Fin 2) = 0
    ∧ win2_1.index t (0 : Fin 2) = win2_3.index t (1 : Fin 3)
    ∧ win2_1.index t (1 : Fin 2) = 0
    ∧ win2_2.index t (0 : Fin 2) = 0 ∧ win2_2.index t (1 : Fin 2) = 0
    ∧ win2_3.index t (0 : Fin 3) ≤ 15 ∧ win2_3.index t (1 : Fin 3) ≤ 3 ∧ win2_3.index t (2 : Fin 3) = 0 :=
  (by decide +kernel : ∀ t : Fin grid2.N, _)

/-- Every block of the result is some point's. -/
theorem blockOnto : ∀ (g : Fin 16) (h : Fin 4), ∃ t : Fin cfg2.N, win2_3.index t = ![g.val, h.val, 0] :=
  (by decide +kernel : ∀ (g : Fin 16) (h : Fin 4), ∃ t : Fin grid2.N, win2_3.index t = ![g.val, h.val, 0])

/-- WHAT POINT `t` WRITES BACK is block `t` of `rows` of the three arrays the region reads. -/
theorem flushed_eq (c : Dev nD) (t : Fin cfg2.N) :
    (dat2 V c).flushed 3 t = ((cfg2.win 3).blk t).view.read (Elt Ideal) (rows (V c main_v2) (V c main_v3) (V c main_v4)) := by
  show (cfg2.win 3).cut (grid2.coords t) ((dat2 V c).after 3 t) = _
  rw [after2_3]
  unfold outsAt2
  rw [run_eq]
  obtain ⟨e0, e1, e2, e3, e4, e5, -, -, e8⟩ := blockIdx t
  funext j
  obtain ⟨a, b, d, rfl⟩ : ∃ (a : Fin 32) (b : Fin 128) (d : Fin 512), j = ix3 a b d := ⟨j 0, j 1, j 2, eq_ix3 j⟩
  refine (pay_apply (iblk2 V c 0 t) (iblk2 V c 1 t) (iblk2 V c 2 t) a b d).trans ?_
  show inA V c (((cfg2.win 0).blk t).view.emb (ix2 a d)) + inC V c (((cfg2.win 1).blk t).view.emb (ix2 b d))
      + inB V c (((cfg2.win 2).blk t).view.emb (ix2 (0 : Fin 1) d))
    = rows (inA V c) (inC V c) (inB V c) (((cfg2.win 3).blk t).view.emb (ix3 a b d))
  have hA : ((cfg2.win 0).blk t).view.emb (ix2 a d)
      = ix2 ((((cfg2.win 3).blk t).view.emb (ix3 a b d)) 0) ((((cfg2.win 3).blk t).view.emb (ix3 a b d)) 2) := by
    funext ax; apply Fin.ext
    match ax with
    | ⟨0, _⟩ => show win2_0.index t (0 : Fin 2) * 32 + 1 * a.val = win2_3.index t (0 : Fin 3) * 32 + 1 * a.val; rw [e0]
    | ⟨1, _⟩ => show win2_0.index t (1 : Fin 2) * 512 + 1 * d.val = win2_3.index t (2 : Fin 3) * 512 + 1 * d.val; rw [e1, e8]
  have hC : ((cfg2.win 1).blk t).view.emb (ix2 b d)
      = ix2 ((((cfg2.win 3).blk t).view.emb (ix3 a b d)) 1) ((((cfg2.win 3).blk t).view.emb (ix3 a b d)) 2) := by
    funext ax; apply Fin.ext
    match ax with
    | ⟨0, _⟩ => show win2_1.index t (0 : Fin 2) * 128 + 1 * b.val = win2_3.index t (1 : Fin 3) * 128 + 1 * b.val; rw [e2]
    | ⟨1, _⟩ => show win2_1.index t (1 : Fin 2) * 512 + 1 * d.val = win2_3.index t (2 : Fin 3) * 512 + 1 * d.val; rw [e3, e8]
  have hB : ((cfg2.win 2).blk t).view.emb (ix2 (0 : Fin 1) d)
      = ix2 (0 : Fin 1) ((((cfg2.win 3).blk t).view.emb (ix3 a b d)) 2) := by
    funext ax; apply Fin.ext
    match ax with
    | ⟨0, _⟩ => show win2_2.index t (0 : Fin 2) * 1 + 1 * 0 = 0; rw [e4]
    | ⟨1, _⟩ => show win2_2.index t (1 : Fin 2) * 512 + 1 * d.val = win2_3.index t (2 : Fin 3) * 512 + 1 * d.val; rw [e5, e8]
  rw [hA, hC, hB]
  rfl

/-- An index of the result is in point `t`'s block iff each coordinate is in the block's range on its axis. -/
theorem mem_blk (t : Fin cfg2.N) (i : S512x512x512.Idx) :
    i ∈ ((cfg2.win 3).blk t).view.set ↔ ∀ a : Fin 3, win2_3.index t a * S32x128x512.size a ≤ (i a).val ∧ (i a).val < win2_3.index t a * S32x128x512.size a + S32x128x512.size a := by
  show i ∈ ((View.whole main_v5).slice (win2_3.rect t)).set ↔ _
  rw [View.set_slice_whole, Rect.mem_set_unit]
  exact Iff.rfl

/-- The blocks cover the result: `(p, q, r)` lies in the block of the point whose block indices are `p / 32` and `q / 128`. -/
theorem cover (i : S512x512x512.Idx) : ∃ t : Fin cfg2.N, (cfg2.win 3).flush t = true ∧ i ∈ ((cfg2.win 3).blk t).view.set := by
  have h0 : (i 0).val < 512 := (i 0).isLt
  have h1 : (i 1).val < 512 := (i 1).isLt
  have h2 : (i 2).val < 512 := (i 2).isLt
  obtain ⟨t, ht⟩ := blockOnto ⟨(i 0).val / 32, by omega⟩ ⟨(i 1).val / 128, by omega⟩
  have q0 : win2_3.index t (0 : Fin 3) = (i 0).val / 32 := congrFun ht 0
  have q1 : win2_3.index t (1 : Fin 3) = (i 1).val / 128 := congrFun ht 1
  have q2 : win2_3.index t (2 : Fin 3) = 0 := congrFun ht 2
  refine ⟨t, flush2_3 t, ?_⟩
  rw [mem_blk]
  intro a
  match a with
  | ⟨0, _⟩ => show win2_3.index t (0 : Fin 3) * 32 ≤ (i 0).val ∧ (i 0).val < win2_3.index t (0 : Fin 3) * 32 + 32; omega
  | ⟨1, _⟩ => show win2_3.index t (1 : Fin 3) * 128 ≤ (i 1).val ∧ (i 1).val < win2_3.index t (1 : Fin 3) * 128 + 128; omega
  | ⟨2, _⟩ => show win2_3.index t (2 : Fin 3) * 512 ≤ (i 2).val ∧ (i 2).val < win2_3.index t (2 : Fin 3) * 512 + 512; omega

/-- THE RESULT ARRAY after the region: `rows` of the three arrays as the region finds them. -/
theorem final (c : Dev nD) : (dat2 V c).arrAt 3 cfg2.N = rows (V c main_v2) (V c main_v3) (V c main_v4) :=
  (dat2 V c).arrAt_eq_of_cover 3 _ (fun t _ => flushed_eq V c t) cover

end Cert.KernelIdeal.PairAdd

end
-- ==== Proof.KernelValue.lean ====
/-
  The kernel's result array, read back to the launch memory.

  Between the launch and the return the memory passes five boundaries: the host slices of the weight's two halves,
  the first projection region, the second, the reshape of the bias to one row, and the broadcast-add region. Each
  region's output array is the region's function of the arrays it finds (the three region modules), every buffer a
  step does not write passes through it, so the result array is, of the four arguments as launched, the pairwise
  affine map of the specification: the slices are the weight's halves, the projections the two products, the reshape
  the bias as a one-row matrix.
-/
import proofs.«142368_j13683765805203_1_alg».proof.Proof.RunNamed
import proofs.«142368_j13683765805203_1_alg».proof.Proof.ProjRegion0
import proofs.«142368_j13683765805203_1_alg».proof.Proof.ProjRegion1
import proofs.«142368_j13683765805203_1_alg».proof.Proof.AddRegion
import proofs.«142368_j13683765805203_1_alg».proof.Proof.Spec
import Idealize.ShloMosaic.Lib.StableHlo.Run
import Idealize.ShloMosaic.Lib.ValueLayout

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo Cert.Pairwise

variable (m : (ℓ : Loc nD τ sig) → Buf (Elt Ideal) ℓ) (ρ : Dev nD → PrngReg)

/-! ## The host steps, read at an index -/

/-- The slice of the weight's first 512 columns is its left half. -/
theorem slice_left (W : Vec Ideal S512x1024 .f32) :
    extractStridedSlice S512x512 ![0, 0] W slices_S512x1024_S512x512_0_0 = leftHalf W := by
  funext j
  obtain ⟨r, k, rfl⟩ : ∃ (r k : Fin 512), j = ix2 r k := ⟨j 0, j 1, eq_ix2 j⟩
  exact extractStridedSlice_apply ![0, 0] W slices_S512x1024_S512x512_0_0 (ix2 r k) (ix2 r (colLeft k)) (fun a => match a with
    | ⟨0, _⟩ => by show r.val = 0 + r.val; omega
    | ⟨1, _⟩ => by show k.val = 0 + k.val; omega)

/-- The slice of the weight's last 512 columns is its right half. -/
theorem slice_right (W : Vec Ideal S512x1024 .f32) :
    extractStridedSlice S512x512 ![0, 512] W slices_S512x1024_S512x512_0_512 = rightHalf W := by
  funext j
  obtain ⟨r, k, rfl⟩ : ∃ (r k : Fin 512), j = ix2 r k := ⟨j 0, j 1, eq_ix2 j⟩
  exact extractStridedSlice_apply ![0, 512] W slices_S512x1024_S512x512_0_512 (ix2 r k) (ix2 r (colRight k)) (fun a => match a with
    | ⟨0, _⟩ => by show r.val = 0 + r.val; omega
    | ⟨1, _⟩ => by show 512 + k.val = 512 + k.val; rfl)

/-! ## The boundaries' contents -/

/-- No host slice writes an argument or a later value: such a buffer is, at the first region's entry, as launched. -/
theorem W1_keeps (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

/-- The reshape writes the bias row only: every other buffer is, at the last region's entry, as the second region left it. -/
theorem W4_keeps (c : Dev nD) (b : Ref sig .tc) (h : b ≠ main_v4) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h))

/-- At the first region's entry the left half's buffer holds the weight's left half. -/
theorem V1_v0 (c : Dev nD) : V1 m ρ c main_v0 = leftHalf (m ((c : Thread nD τ).loc main_arg2)) := by
  rw [← slice_left]
  show StableHlo.after hostOps0 (W0 m ρ c) (Proc.devRef .tc main_v0) = _
  after_results

/-- At the first region's entry the right half's buffer holds the weight's right half. -/
theorem V1_v1 (c : Dev nD) : V1 m ρ c main_v1 = rightHalf (m ((c : Thread nD τ).loc main_arg2)) := by
  rw [← slice_right]
  show StableHlo.after hostOps0 (W0 m ρ c) (Proc.devRef .tc main_v1) = _
  after_results

/-- After the first region its output holds the ligands' projection. -/
theorem V2_v2 (c : Dev nD) :
    V2 m ρ c main_v2 = proj (m ((c : Thread nD τ).loc main_arg0)) (leftHalf (m ((c : Thread nD τ).loc main_arg2))) := by
  refine (W2_arr m ρ c 2).trans ?_
  rw [Proj0.final (V1 m ρ) c, Proj0.pay_eq, V1_v0]
  exact congrArg (fun x => proj x _) (W1_keeps m ρ c main_arg0 (by decide) (by decide))

/-- After the second region its output holds the receptors' projection. -/
theorem V3_v3 (c : Dev nD) :
    V3 m ρ c main_v3 = proj (m ((c : Thread nD τ).loc main_arg1)) (rightHalf (m ((c : Thread nD τ).loc main_arg2))) := by
  refine (W3_arr m ρ c 2).trans ?_
  rw [Proj1.final (V2 m ρ) c, Proj1.pay_eq]
  have hx : V2 m ρ c main_arg1 = m ((c : Thread nD τ).loc main_arg1) :=
    (W2_of_ne m ρ c main_arg1 (by decide)).trans (W1_keeps m ρ c main_arg1 (by decide) (by decide))
  have hw : V2 m ρ c main_v1 = rightHalf (m ((c : Thread nD τ).loc main_arg2)) :=
    (W2_of_ne m ρ c main_v1 (by decide)).trans (V1_v1 m ρ c)
  rw [hx, hw]

/-- At the last region's entry the first projection is still in place, -/
theorem V4_v2 (c : Dev nD) :
    V4 m ρ c main_v2 = proj (m ((c : Thread nD τ).loc main_arg0)) (leftHalf (m ((c : Thread nD τ).loc main_arg2))) :=
  ((W4_keeps m ρ c main_v2 (by decide)).trans (W3_of_ne m ρ c main_v2 (by decide))).trans (V2_v2 m ρ c)

/-- and so is the second, -/
theorem V4_v3 (c : Dev nD) :
    V4 m ρ c main_v3 = proj (m ((c : Thread nD τ).loc main_arg1)) (rightHalf (m ((c : Thread nD τ).loc main_arg2))) :=
  (W4_keeps m ρ c main_v3 (by decide)).trans (V3_v3 m ρ c)

/-- and the bias row holds the bias: its entry `(0, r)` is the bias at `r`. -/
theorem V4_v4 (c : Dev nD) (r : Fin 512) :
    V4 m ρ c main_v4 (ix2 (0 : Fin 1) r) = m ((c : Thread nD τ).loc main_arg3) (ix1 r) := by
  have hb : W3 m ρ c (Proc.devRef .tc main_arg3) = m ((c : Thread nD τ).loc main_arg3) :=
    ((W3_of_ne m ρ c main_arg3 (by decide)).trans (W2_of_ne m ρ c main_arg3 (by decide))).trans
      (W1_keeps m ρ c main_arg3 (by decide) (by decide))
  have hv : V4 m ρ c main_v4 = shapeCast S1x512 (W3 m ρ c (Proc.devRef .tc main_arg3)) shapeCasts_S512_S1x512 := by
    show StableHlo.after hostOps2 (W3 m ρ c) (Proc.devRef .tc main_v4) = _
    after_results
    rfl
  rw [hv, hb]
  exact shapeCast_a_1a_apply _ shapeCasts_S512_S1x512 (0 : Fin 1) r

/-! ## The result -/

/-- THE RESULT ARRAY at the last boundary is the pairwise affine map of the four arguments as launched. -/
theorem result_eq (c : Dev nD) :
    W5 m ρ c (Proc.devRef .tc main_v5)
      = pairwise (m ((c : Thread nD τ).loc main_arg0)) (m ((c : Thread nD τ).loc main_arg1))
          (m ((c : Thread nD τ).loc main_arg2)) (m ((c : Thread nD τ).loc main_arg3)) := by
  refine (W5_arr m ρ c 3).trans ?_
  rw [PairAdd.final (V4 m ρ) c]
  funext i
  obtain ⟨p, q, r, rfl⟩ : ∃ (p q r : Fin 512), i = ix3 p q r := ⟨i 0, i 1, i 2, eq_ix3 i⟩
  rw [PairAdd.rows_ix3, V4_v2, V4_v3, V4_v4]
  rfl

/-- THE RUN, READ: every weakly fair execution of the kernel's program terminates with the result buffer at the
    pairwise affine map of the launch arguments, and the arguments unchanged. -/
theorem run : θ_run defs (onTc (τ := τ) (main (F := Ideal))) ⟨m, fun _ => 0, ρ⟩ (fun r => ∀ c : Dev nD,
      r.2.mem ((c.tc : Thread nD τ).loc main_v5)
        = pairwise (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m ρ c), (h c).2⟩) (RunNamed.run_named m ρ)

end Cert.KernelIdeal.KernelValue

end
-- ==== Proof.RefValue.lean ====
/-
  The reference, read at an index.

  Its program slices the weight into its two halves, transposes each, contracts the ligands with the first and the
  receptors with the second, broadcasts the two products and the bias to [512, 512, 512] and adds them, the products
  first. Read one operation at a time, the entry `(p, q, r)` of its result is the specification's: the slice and the
  transposition only rename the position a weight entry is read at.
-/
import proofs.«142368_j13683765805203_1_alg».proof.Proof.Gen.ReferenceIdeal.Run
import proofs.«142368_j13683765805203_1_alg».proof.Proof.Gen.ReferenceIdeal.Read
import proofs.«142368_j13683765805203_1_alg».proof.Proof.Spec

open scoped BigOperators

noncomputable section

namespace Cert.ReferenceIdeal.RefValue

open Cert.ReferenceIdeal Cert.ReferenceIdeal.Read Idealize.ShloMosaic Idealize.ShloMosaic.ValueIdx Cert.Pairwise

/-- Through the two broadcasts, the left operand of the first product is read at `(p, k)`. -/
theorem ligIdx (p q r k : Fin 512) : lidx_main_v3 (idx_main_v6 (idx_main_v8 (ix3 p q r))) k = ix2 p k :=
  funext fun a => Fin.ext (by match a with | ⟨0, _⟩ => rfl | ⟨1, _⟩ => rfl)

/-- Through the two broadcasts, the transposition and the slice, the weight is read at `(r, k)` in the first product. -/
theorem leftIdx (p q r k : Fin 512) :
    idx_main_v0 (idx_main_v2 (ridx_main_v3 (idx_main_v6 (idx_main_v8 (ix3 p q r))) k)) = ix2 r (colLeft k) :=
  funext fun a => Fin.ext (by match a with | ⟨0, _⟩ => rfl | ⟨1, _⟩ => rfl)

/-- Through the two broadcasts, the left operand of the second product is read at `(q, k)`. -/
theorem recIdx (p q r k : Fin 512) : lidx_main_v5 (idx_main_v7 (idx_main_v9 (ix3 p q r))) k = ix2 q k :=
  funext fun a => Fin.ext (by match a with | ⟨0, _⟩ => rfl | ⟨1, _⟩ => rfl)

/-- Through the two broadcasts, the transposition and the slice, the weight is read at `(r, 512 + k)` in the second. -/
theorem rightIdx (p q r k : Fin 512) :
    idx_main_v1 (idx_main_v4 (ridx_main_v5 (idx_main_v7 (idx_main_v9 (ix3 p q r))) k)) = ix2 r (colRight k) :=
  funext fun a => Fin.ext (by match a with | ⟨0, _⟩ => rfl | ⟨1, _⟩ => rfl)

/-- Through its two broadcasts the bias is read at `r`. -/
theorem biasIdx (p q r : Fin 512) : idx_main_v11 (idx_main_v12 (ix3 p q r)) = ix1 r :=
  funext fun a => Fin.ext (by match a with | ⟨0, _⟩ => rfl)

/-- The reference's last stage is the pairwise affine map of its four arguments. -/
theorem stage_eq (x0 x1 : (⟨S512x512, .f32⟩ : BufTy).Contents (Elt Ideal)) (x2 : (⟨S512x1024, .f32⟩ : BufTy).Contents (Elt Ideal))
    (x3 : (⟨S512, .f32⟩ : BufTy).Contents (Elt Ideal)) :
    val_main_v13 (F := Ideal) x0 x1 x2 x3 = pairwise x0 x1 x2 x3 := by
  funext i
  obtain ⟨p, q, r, rfl⟩ : ∃ (p q r : Fin 512), i = ix3 p q r := ⟨i 0, i 1, i 2, eq_ix3 i⟩
  rw [pairwise_ix3, val_main_v13_apply, val_main_v10_apply, val_main_v8_apply, val_main_v6_apply, val_main_v3_apply,
    val_main_v9_apply, val_main_v7_apply, val_main_v5_apply, val_main_v12_apply, val_main_v11_apply]
  simp only [val_main_v2_apply, val_main_v0_apply, val_main_v4_apply, val_main_v1_apply, ligIdx, leftIdx, recIdx, rightIdx,
    biasIdx]
  rfl

end Cert.ReferenceIdeal.RefValue

end
-- ==== Proof.lean ====
/-
  The pairwise affine layer, kernel against reference, over the extended reals.

  Both programs compute, of ligand rows `lig`, receptor rows `rec`, a weight `W = [W₁ | W₂]` and a bias `b`,

      out (p, q, r) = (∑ k, lig (p, k) · W₁ (r, k)) + (∑ k, rec (q, k) · W₂ (r, k)) + b r.

  The kernel's program slices the weight's halves on the host, runs one matrix-product region per half (each a single
  grid point over whole [512, 512] arrays: the operands narrowed to a 16-bit format, the second transposed, the product
  accumulated into zero), reshapes the bias to one row, and runs a broadcast-add region over a 16 × 4 grid that writes
  the first product's rows, adds the second's, then the bias. At the ideal values a change of float format is the
  identity and a product into a zero accumulator is the plain sum, so each region's output is the specification's
  term of the arrays it reads; the reference's slices, transpositions, contractions and broadcasts read at an index
  give the same term. No law of the extended reals beyond reading both sides at an index is needed: the two sums are
  added first and the bias last on both sides, and each sum runs over the same 512 positions in the same order. The
  precondition (finite inputs) is not used.

  The frames of the two kernel programs are the generated ones; the reference's frame is its generated run with the
  result dropped; the idealization rewrote nothing, so that conjunct is trivial.
-/
import proofs.«142368_j13683765805203_1_alg».proof.Defs
import proofs.«142368_j13683765805203_1_alg».proof.Proof.Gen.Kernel
import proofs.«142368_j13683765805203_1_alg».proof.Proof.Gen.Kernel.Skeleton
import proofs.«142368_j13683765805203_1_alg».proof.Proof.Gen.Kernel.Launch
import proofs.«142368_j13683765805203_1_alg».proof.Proof.Gen.Kernel.Points
import proofs.«142368_j13683765805203_1_alg».proof.Proof.Gen.Kernel.Frame
import proofs.«142368_j13683765805203_1_alg».proof.Proof.Gen.KernelIdeal
import proofs.«142368_j13683765805203_1_alg».proof.Proof.Gen.KernelIdeal.Skeleton
import proofs.«142368_j13683765805203_1_alg».proof.Proof.Gen.KernelIdeal.Launch
import proofs.«142368_j13683765805203_1_alg».proof.Proof.Gen.KernelIdeal.Points
import proofs.«142368_j13683765805203_1_alg».proof.Proof.Gen.KernelIdeal.Frame
import proofs.«142368_j13683765805203_1_alg».proof.Proof.Gen.ReferenceIdeal
import proofs.«142368_j13683765805203_1_alg».proof.Proof.Gen.ReferenceIdeal.Run
import proofs.«142368_j13683765805203_1_alg».proof.Proof.Gen.ReferenceIdeal.Read
import proofs.«142368_j13683765805203_1_alg».proof.Proof.Gen.Pre_finite_inputs
import proofs.«142368_j13683765805203_1_alg».proof.Proof.KernelValue
import proofs.«142368_j13683765805203_1_alg».proof.Proof.RefValue
import Idealize.ShloMosaic.Adequacy
import Idealize.ShloMosaic.Init

noncomputable section

namespace Cert.Proof

open Idealize.ShloMosaic Idealize.ShloMosaic.TcCoe Idealize.SL.Sem

/-- The kernel's program at the machine's words runs and leaves its arguments in place. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments in place: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result at the pairwise affine map of
    the kernel's arguments: the kernel by its run read back through its regions, the reference by its run read one
    operation at a time. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq, Cert.ReferenceIdeal.RefValue.stage_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
